-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x1024x1024 : Shape := ⟨3, ![4, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  shapeCasts_S1024x1_S1x1024 : S1024x1.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x1024x64.size a
  hwx0_0 : ∀ i : grid0.Coords, EltTy.bits .f32 = 32 ∨ (Rect.block (s := S4x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x1024x64.size a
  hwx0_1 : ∀ i : grid0.Coords, EltTy.bits .f32 = 32 ∨ (Rect.block (s := S4x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x1024x1024.size a
  hwx0_2 : ∀ i : grid0.Coords, EltTy.bits .f32 = 32 ∨ (Rect.block (s := S4x1024x1024) S1x1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1x64, .f32⟩
  | .hbm, ⟨3, _⟩ => ⟨S4x1x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel

variable [Facts₀]

class Facts : Prop extends Facts₀ where

variable [Facts]
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«176832_j41875931136253_1_alg».proof.Proof.LibLayoutCol
import proofs.«176832_j41875931136253_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibPairDist.lean ====
/-
  Pairwise squared distances by the product decomposition, read at an entry (a general lemma: nothing here depends on a
  program).

  For a of shape [A, K] and b of shape [C, K] a kernel may compute all A·C squared distances between a row of a and a
  row of b without ever forming the differences: the squared lengths of a's rows as a column, those of b's rows as a
  column laid out again as a row, each repeated across the [A, C] result, their sum, and from it twice the product of
  a with the transpose of b (the factors narrowed to a shorter format first, which over the extended reals changes
  nothing; the product accumulated from zero).  At entry (p, q) this is
      ∑_k a(p,k)² + ∑_k b(q,k)² − w · ∑_k a(p,k) · b(q,k),
  w the extended real the scalar's word denotes.  Any sizes A, C, K.
-/
import proofs.«176832_j41875931136253_1_alg».proof.Proof.LibMatmulRowRow
import proofs.«176832_j41875931136253_1_alg».proof.Proof.LibColSum
import proofs.«176832_j41875931136253_1_alg».proof.Proof.LibColToRow
import Idealize.ShloMosaic.Lib.ValueIdx
import Idealize.ShloMosaic.PureOps.Ideal.Laws

noncomputable section

open scoped BigOperators

namespace Cert.Lib.PairDist

open Idealize.ShloMosaic Idealize.ShloMosaic.ValueIdx

variable {A C K : Nat}

/-- What the decomposition holds at entry (p, q): the two squared lengths, less the scalar times the inner product. -/
def entry (a : FVec Ideal ⟨2, ![A, K]⟩ .f32) (b : FVec Ideal ⟨2, ![C, K]⟩ .f32) (w : BitVec 32) (p : Fin A) (q : Fin C) : EReal :=
  ((∑ k : Fin K, (a (ix2 p k) : EReal) * (a (ix2 p k) : EReal)) + (∑ k : Fin K, (b (ix2 q k) : EReal) * (b (ix2 q k) : EReal)))
    - Ideal.ofBits .f32 w * ∑ k : Fin K, (a (ix2 p k) : EReal) * (b (ix2 q k) : EReal)

/-- The kernel's spelling of the decomposition, at entry (p, q), is `entry`. -/
theorem decomposition_apply (a : FVec Ideal ⟨2, ![A, K]⟩ .f32) (b : FVec Ideal ⟨2, ![C, K]⟩ .f32) (w : BitVec 32)
    (hra : (⟨2, ![A, K]⟩ : Shape).Reduces [1] ⟨1, ![A]⟩) (hrb : (⟨2, ![C, K]⟩ : Shape).Reduces [1] ⟨1, ![C]⟩)
    (hca : (⟨1, ![A]⟩ : Shape).ShapeCasts ⟨2, ![A, 1]⟩) (hcb : (⟨1, ![C]⟩ : Shape).ShapeCasts ⟨2, ![C, 1]⟩)
    (hrow : (⟨2, ![C, 1]⟩ : Shape).ShapeCasts ⟨2, ![1, C]⟩)
    (hba : (⟨2, ![A, 1]⟩ : Shape).Broadcasts ⟨2, ![A, C]⟩) (hbb : (⟨2, ![1, C]⟩ : Shape).Broadcasts ⟨2, ![A, C]⟩)
    (hlt : FTy.bits .bf16 < FTy.bits .f32) (prec : Option ContractPrecision) (p : Fin A) (q : Fin C) :
    subf
        (addf
          (broadcastTo ⟨2, ![A, C]⟩ (shapeCast ⟨2, ![A, 1]⟩ (multiReduction .add [1] ⟨1, ![A]⟩ (mulf a a) 0x00000000#32 hra (.inl rfl) rfl) hca) hba)
          (broadcastTo ⟨2, ![A, C]⟩ (shapeCast ⟨2, ![1, C]⟩ (shapeCast ⟨2, ![C, 1]⟩ (multiReduction .add [1] ⟨1, ![C]⟩ (mulf b b) 0x00000000#32 hrb (.inl rfl) rfl) hcb) hrow) hbb))
        (mulf (broadcast ⟨2, ![A, C]⟩ (Scalar.ofBits (F := Ideal) .f32 w))
          (matmul (DotDims.transposedRhs A K C) prec (truncf .bf16 a hlt) (truncf .bf16 b hlt) (constant ⟨2, ![A, C]⟩ .f32 0x00000000#32)))
        (ix2 p q)
      = entry a b w p q := by
  rw [subf_apply, addf_apply, mulf_apply, broadcast_apply]
  unfold entry
  refine congrArg₂ (· - ·) (congrArg₂ (· + ·) ?_ ?_) (congrArg₂ (· * ·) rfl ?_)
  · exact (Cert.Lib.ColSum.bcastColMat_apply _ hba p q).trans
      (Cert.Lib.ColSum.rowSumCol_apply (mulf a a) hra (.inl rfl) rfl hca p 0)
  · exact (Cert.Lib.ColToRow.colAsRowBcast_apply _ hrow hbb p q).trans
      (Cert.Lib.ColSum.rowSumCol_apply (mulf b b) hrb (.inl rfl) rfl hcb q 0)
  · exact Cert.Lib.MatmulRowRow.matmul_zero_apply prec (truncf .bf16 a hlt) (truncf .bf16 b hlt) p q

end Cert.Lib.PairDist

end
-- ==== Proof.SqDistAlgebra.lean ====
/-
  The expansion of a squared Euclidean distance.

  For real numbers x_k and y_k,
      ∑_k (x_k − y_k)² = ∑_k x_k² + ∑_k y_k² − 2 · ∑_k x_k · y_k,
  by the binomial formula term by term.  On the extended reals the identity fails where an infinity meets its
  opposite (∞ − ∞ is not 0), so it is stated for two families every entry of which is a real number: that is what the
  finiteness of the inputs provides.  The factor two is the extended real that the single-precision word of 2.0
  denotes.
-/
import Idealize.ShloMosaic.PureOps.Ideal.Laws
import Mathlib.Tactic.Ring

noncomputable section

open scoped BigOperators

namespace Cert.PairDist

open Idealize.ShloMosaic

/-- An extended real that is a real number: neither infinity. -/
def IsReal (x : EReal) : Prop := ∃ r : ℝ, x = (r : EReal)

/-- A finite sum of real numbers, each read as an extended real, is the real sum read as an extended real. -/
theorem coe_sum {ι : Type} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- The binomial formula summed, over the reals. -/
theorem real_expand {K : Nat} (x y : Fin K → ℝ) :
    (∑ k, x k * x k) + (∑ k, y k * y k) - 2 * (∑ k, x k * y k) = ∑ k, (x k - y k) * (x k - y k) := by
  rw [Finset.mul_sum, ← Finset.sum_add_distrib, ← Finset.sum_sub_distrib]
  exact Finset.sum_congr rfl fun k _ => by ring

/-- The same on the extended reals, for families of real entries; the right side starts from zero, as a sum that is
    accumulated into a zero initial value does. -/
theorem expand {K : Nat} (a b : Fin K → EReal) (ha : ∀ k, IsReal (a k)) (hb : ∀ k, IsReal (b k)) :
    (∑ k, a k * a k) + (∑ k, b k * b k) - ((2 : ℝ) : EReal) * (∑ k, a k * b k)
      = 0 + ∑ k, (a k - b k) * (a k - b k) := by
  choose x hx using ha
  choose y hy using hb
  obtain rfl : a = fun k => ((x k : ℝ) : EReal) := funext hx
  obtain rfl : b = fun k => ((y k : ℝ) : EReal) := funext hy
  simp only [← EReal.coe_mul, ← EReal.coe_sub, coe_sum, ← EReal.coe_add, zero_add]
  exact congrArg _ (real_expand x y)

/-- The single-precision word of 2.0 denotes the real number two. -/
theorem ofBits_two : Ideal.ofBits .f32 0x40000000#32 = ((2 : ℝ) : EReal) := by
  simp [Ideal.ofBits, Ideal.ieee, -EReal.coe_mul]; norm_num

end Cert.PairDist

end
-- ==== Proof.Spec.lean ====
/-
  The function both programs compute: all pairwise squared Euclidean distances, batch by batch.

  For two arrays a and b of 4 batches of 1024 points in 64 dimensions, the result holds at (β, n, m) the squared
  distance between point n of a's batch β and point m of b's batch β,
      ∑_d (a(β,n,d) − b(β,m,d))²,
  written as the sum accumulated into zero of the squared differences.
-/
import Idealize.ShloMosaic.Lib.ValueIdx
import Idealize.ShloMosaic.PureOps.Ideal

noncomputable section

open scoped BigOperators

namespace Cert.PairDist

open Idealize.ShloMosaic Idealize.ShloMosaic.ValueIdx

/-- The squared distance between point n of a's batch β and point m of b's batch β, at (β, n, m). -/
def sqDist (a b : FVec Ideal ⟨3, ![4, 1024, 64]⟩ .f32) : FVec Ideal ⟨3, ![4, 1024, 1024]⟩ .f32 := fun i =>
  ((0 : EReal) + ∑ k : Fin 64,
    ((a (ix3 (i 0) (i 1) k) : EReal) - (b (ix3 (i 0) (i 2) k) : EReal))
      * ((a (ix3 (i 0) (i 1) k) : EReal) - (b (ix3 (i 0) (i 2) k) : EReal)) : EReal)

theorem sqDist_apply (a b : FVec Ideal ⟨3, ![4, 1024, 64]⟩ .f32) (i : (⟨3, ![4, 1024, 1024]⟩ : Shape).Idx) :
    (sqDist a b i : EReal) = 0 + ∑ k : Fin 64,
      ((a (ix3 (i 0) (i 1) k) : EReal) - (b (ix3 (i 0) (i 2) k) : EReal))
        * ((a (ix3 (i 0) (i 1) k) : EReal) - (b (ix3 (i 0) (i 2) k) : EReal)) := rfl

end Cert.PairDist

end
-- ==== Proof.KernelArray.lean ====
/-
  What the kernel leaves in its result array: the squared distances.

  The grid has one point per batch.  At point t the kernel reads batch t of a and of b whole, as matrices of 1024 rows
  and 64 columns, and writes batch t of the result: entry (n, m) is the squared length of a's row n plus the squared
  length of b's row m less twice their inner product.  When the entries are real numbers that is the squared distance
  of the two rows (the binomial formula summed over the 64 columns).  The four batches tile the result, so the whole
  array ends at the squared distances.
-/
import proofs.«176832_j41875931136253_1_alg».proof.Proof.Gen.KernelIdeal.Value
import proofs.«176832_j41875931136253_1_alg».proof.Proof.LibPairDist
import proofs.«176832_j41875931136253_1_alg».proof.Proof.SqDistAlgebra
import proofs.«176832_j41875931136253_1_alg».proof.Proof.Spec
import Idealize.ShloMosaic.Lib.Pipeline.Value
import Idealize.ShloMosaic.Lib.ValueIdx

set_option maxRecDepth 16384

noncomputable section

open scoped BigOperators

namespace Cert.PairDist.Kernel

open Cert.KernelIdeal Cert.KernelIdeal.Gen Idealize.ShloMosaic Idealize.ShloMosaic.TcCoe Idealize.SL.Sem
open Idealize.ShloMosaic.ValueIdx
open Idealize.ShloMosaic.Pipeline (Dat)

/-! ## One block -/

/-- A batch [1, 1024, 64] seen as a matrix [1024, 64]: entry (r, k) is the batch's entry (0, r, k). -/
theorem matrix_apply (x : Vec Ideal S1x1024x64 .f32) (r : Fin 1024) (k : Fin 64) :
    shapeCast S1024x64 x shapeCasts_S1x1024x64_S1024x64 (ix2 r k) = x (ix3 (0 : Fin 1) r k) := by
  refine (shapeCast_dropUnit_apply (n := 2) ![1024, 64] x shapeCasts_S1x1024x64_S1024x64 (ix2 r k)).trans (congrArg x ?_)
  funext a
  match a with
  | ⟨0, _⟩ => rfl
  | ⟨1, _⟩ => rfl
  | ⟨2, _⟩ => rfl

/-- What the body stores, at position j of the result's block: the product decomposition of the two batches' matrices
    at entry (j 1, j 2), the scalar being the word of 2.0. -/
theorem stored_apply (x0 x1 : Vec Ideal S1x1024x64 .f32) (j : S1x1024x1024.Idx) :
    k0_pay1 (F := Ideal) x0 x1 j
      = Cert.Lib.PairDist.entry (shapeCast S1024x64 x0 shapeCasts_S1x1024x64_S1024x64)
          (shapeCast S1024x64 x1 shapeCasts_S1x1024x64_S1024x64) 0x40000000#32 (j 1) (j 2) := by
  have ej : (fun a : Fin 2 => j a.succ) = ix2 (j 1) (j 2) := funext fun a => by
    match a with
    | ⟨0, _⟩ => rfl
    | ⟨1, _⟩ => rfl
  unfold k0_pay1
  refine ((shapeCast_addUnit_apply (n := 2) ![1024, 1024] _ shapeCasts_S1024x1024_S1x1024x1024 j).trans (congrArg _ ej)).trans ?_
  exact Cert.Lib.PairDist.decomposition_apply _ _ _ _ _ _ _ _ _ _ _ _ (j 1) (j 2)

/-- The decomposition's entry in terms of the two rows it reads. -/
theorem entry_of_rows {A C K : Nat} (a : FVec Ideal ⟨2, ![A, K]⟩ .f32) (b : FVec Ideal ⟨2, ![C, K]⟩ .f32) (w : BitVec 32)
    (p : Fin A) (q : Fin C) (α β : Fin K → EReal) (hα : ∀ k, (a (ix2 p k) : EReal) = α k) (hβ : ∀ k, (b (ix2 q k) : EReal) = β k) :
    Cert.Lib.PairDist.entry a b w p q
      = (∑ k, α k * α k) + (∑ k, β k * β k) - Ideal.ofBits .f32 w * ∑ k, α k * β k := by
  unfold Cert.Lib.PairDist.entry
  simp only [hα, hβ]

/-! ## The blocks in the arrays -/

theorem hz : (![0, 0, 0] : Fin 3 → Nat) = fun _ => 0 := funext fun a => by fin_cases a <;> rfl

/-- The printed index maps, decided over the four grid points: every window's block index is (its batch, 0, 0), the
    three windows move together, and the batch stays below four. -/
theorem idx_facts : ∀ t : Fin cfg0.N,
    win0_0.index t (0 : Fin 3) = win0_2.index t (0 : Fin 3) ∧ win0_1.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 3 :=
  (by decide +kernel : ∀ t : Fin grid0.N, _)

/-- Every batch is some point's block. -/
theorem idx_onto : ∀ q0 : Fin 4, ∃ t : Fin cfg0.N, win0_2.index t = ![q0.val, 0, 0] :=
  (by decide +kernel : ∀ q0 : Fin 4, ∃ t : Fin grid0.N, win0_2.index t = ![q0.val, 0, 0])

variable (m : (ℓ : Loc nD τ sig) → Buf (Elt Ideal) ℓ) (ρ : Dev nD → PrngReg)

/-- WHAT POINT t WRITES BACK is block t of the squared distances of the two argument arrays, when their entries are
    real numbers. -/
theorem flushed_eq (c : Dev nD) (t : Fin cfg0.N)
    (h0 : ∀ i, Cert.PairDist.IsReal (V m c main_arg0 i)) (h1 : ∀ i, Cert.PairDist.IsReal (V m c main_arg1 i)) :
    (dats m 0 c).flushed 2 t
      = ((cfg0.win 2).blk t).view.read (Elt Ideal) (Cert.PairDist.sqDist (V m c main_arg0) (V m c main_arg1)) := by
  rw [Cert.KernelIdeal.Value.flushed2]
  unfold out0_2
  rw [View.canon_unit_zero hz]
  simp only [View.ld_unit_zero (S := S1x1024x64) hz]
  obtain ⟨e00, e10, e01, e02, e11, e12, e21, e22, -⟩ := idx_facts t
  funext j
  show k0_pay1 (F := Ideal) (iblk m c 0 t) (iblk m c 1 t) j
    = Cert.PairDist.sqDist (V m c main_arg0) (V m c main_arg1) (((cfg0.win 2).blk t).view.emb j)
  have hj0 : (j 0).val < 1 := (j 0).isLt
  have hj1 : (j 1).val < 1024 := (j 1).isLt
  have hj2 : (j 2).val < 1024 := (j 2).isLt
  -- row j 1 of a's block is row (batch, j 1) of a
  have hα : ∀ k : Fin 64,
      (shapeCast S1024x64 (iblk m c 0 t) shapeCasts_S1x1024x64_S1024x64 (ix2 (j 1) k) : EReal)
        = V m c main_arg0 (ix3 ((((cfg0.win 2).blk t).view.emb j) 0) ((((cfg0.win 2).blk t).view.emb j) 1) k) := fun k => by
    refine (matrix_apply (iblk m c 0 t) (j 1) k).trans ?_
    show V m c main_arg0 (((cfg0.win 0).blk t).view.emb (ix3 (0 : Fin 1) (j 1) k)) = _
    refine congrArg (V m c main_arg0) (funext fun a => Fin.ext ?_)
    have hk : k.val < 64 := k.isLt
    match a with
    | ⟨0, _⟩ => show win0_0.index t (0 : Fin 3) * 1 + 1 * 0 = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 64 + 1 * k.val = k.val; omega
  -- row j 2 of b's block is row (batch, j 2) of b
  have hβ : ∀ k : Fin 64,
      (shapeCast S1024x64 (iblk m c 1 t) shapeCasts_S1x1024x64_S1024x64 (ix2 (j 2) k) : EReal)
        = V m c main_arg1 (ix3 ((((cfg0.win 2).blk t).view.emb j) 0) ((((cfg0.win 2).blk t).view.emb j) 2) k) := fun k => by
    refine (matrix_apply (iblk m c 1 t) (j 2) k).trans ?_
    show V m c main_arg1 (((cfg0.win 1).blk t).view.emb (ix3 (0 : Fin 1) (j 2) k)) = _
    refine congrArg (V m c main_arg1) (funext fun a => Fin.ext ?_)
    have hk : k.val < 64 := k.isLt
    match a with
    | ⟨0, _⟩ => show win0_1.index t (0 : Fin 3) * 1 + 1 * 0 = win0_2.index t (0 : Fin 3) * 1 + 1 * (j 0).val; omega
    | ⟨1, _⟩ => show win0_1.index t (1 : Fin 3) * 1024 + 1 * (j 2).val = win0_2.index t (2 : Fin 3) * 1024 + 1 * (j 2).val; omega
    | ⟨2, _⟩ => show win0_1.index t (2 : Fin 3) * 64 + 1 * k.val = k.val; omega
  refine (stored_apply (iblk m c 0 t) (iblk m c 1 t) j).trans ?_
  refine (entry_of_rows _ _ _ (j 1) (j 2) _ _ hα hβ).trans ?_
  rw [Cert.PairDist.ofBits_two, Cert.PairDist.sqDist_apply]
  exact Cert.PairDist.expand _ _ (fun k => h0 _) (fun k => h1 _)

/-- An index of the result is in point t's block iff each coordinate is in the block's range on its axis. -/
theorem mem_blk (t : Fin cfg0.N) (i : S4x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The four batches tile the result: every index is in the block of the point of its batch. -/
theorem cover (i : S4x1024x1024.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE RESULT ARRAY after the run is the squared distances of the argument arrays, when their entries are real. -/
theorem final (c : Dev nD)
    (h0 : ∀ i, Cert.PairDist.IsReal (V m c main_arg0 i)) (h1 : ∀ i, Cert.PairDist.IsReal (V m c main_arg1 i)) :
    (dats m 0 c).arrAt 2 cfg0.N = Cert.PairDist.sqDist (V m c main_arg0) (V m c main_arg1) :=
  (dats m 0 c).arrAt_eq_of_cover 2 _ (fun t _ => flushed_eq m c t h0 h1) cover

/-- The kernel's run: it ends with the result at the squared distances and the arguments unchanged, when the
    arguments' entries are real numbers. -/
theorem run
    (hfin : ∀ c : Dev nD, (∀ i, Cert.PairDist.IsReal (V m c main_arg0 i)) ∧ (∀ i, Cert.PairDist.IsReal (V m c main_arg1 i))) :
    θ_run defs (onTc (τ := τ) (main (F := Ideal))) ⟨m, fun _ => 0, ρ⟩ fun r => ∀ c : Dev nD,
      r.2.mem ((c : Thread nD τ).loc main_v0)
        = Cert.PairDist.sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (Cert.KernelIdeal.Value.run_blocks m ρ)

end Cert.PairDist.Kernel

end
-- ==== Proof.RefEntry.lean ====
/-
  The reference computes the squared distances as they are defined.

  It repeats a along a new axis of b's points and b along a new axis of a's points, subtracts, squares, and sums the
  last axis into zero.  Read at (β, n, m): the k-th term is a at (β, n, k) less b at (β, m, k), squared — the broadcasts
  only choose which coordinates of the four-index position each operand is read at.
-/
import proofs.«176832_j41875931136253_1_alg».proof.Proof.Gen.ReferenceIdeal.Read
import proofs.«176832_j41875931136253_1_alg».proof.Proof.Spec

noncomputable section

open scoped BigOperators

namespace Cert.PairDist.Ref

open Cert.ReferenceIdeal Cert.ReferenceIdeal.Gen Cert.ReferenceIdeal.Read Idealize.ShloMosaic Idealize.ShloMosaic.ValueIdx

/-- The first operand is read at (β, n, k): the repeated axis of b's points is dropped. -/
theorem idx_a (i : S4x1024x1024.Idx) (k : Fin 64) :
    idx_main_v0 (idx_main_v2 (idx_main_v6 i k)) = ix3 (i 0) (i 1) k :=
  funext fun a => Fin.ext (by match a with | ⟨0, _⟩ => rfl | ⟨1, _⟩ => rfl | ⟨2, _⟩ => rfl)

/-- The second operand is read at (β, m, k): the repeated axis of a's points is dropped. -/
theorem idx_b (i : S4x1024x1024.Idx) (k : Fin 64) :
    idx_main_v1 (idx_main_v3 (idx_main_v6 i k)) = ix3 (i 0) (i 2) k :=
  funext fun a => Fin.ext (by match a with | ⟨0, _⟩ => rfl | ⟨1, _⟩ => rfl | ⟨2, _⟩ => rfl)

/-- The reference's result is the squared distances. -/
theorem ref_eq (x0 x1 : (⟨S4x1024x64, .f32⟩ : BufTy).Contents (Elt Ideal)) :
    val_main_v6 (F := Ideal) x0 x1 = Cert.PairDist.sqDist x0 x1 := by
  funext i
  rw [val_main_v6_apply, Cert.PairDist.sqDist_apply]
  refine congrArg₂ (· + ·) Ideal.ofBits_zero_f32 (Finset.sum_congr rfl fun k _ => ?_)
  rw [val_main_v5_apply, val_main_v4_apply, val_main_v2_apply, val_main_v0_apply, val_main_v3_apply, val_main_v1_apply,
    idx_a, idx_b]
  rfl

end Cert.PairDist.Ref

end
-- ==== Proof.Finite.lean ====
/-
  Under the precondition every entry of both inputs is a real number.

  The precondition says of each input x that |x| < +∞ at every index (the conjunction over all indices, and of the
  two inputs' conjunctions, is one).  An extended real whose absolute value max(x, −x) is below +∞ is neither +∞ nor −∞,
  so it is a real number.
-/
import proofs.«176832_j41875931136253_1_alg».proof.Pre_finite_inputs
import proofs.«176832_j41875931136253_1_alg».proof.Proof.SqDistAlgebra
import Idealize.ShloMosaic.Lib.ReduceAll
import Idealize.ShloMosaic.Lib.ValueIdx
import Idealize.ShloMosaic.PureOps.Ideal.Laws

noncomputable section

namespace Cert.PairDist.Finite

open Idealize.ShloMosaic

/-- An extended real whose absolute value is below the word of +∞ is a real number. -/
theorem real_of_abs_lt (x : EReal)
    (h : Ideal.cmp .olt (max x (-x)) (Ideal.ofBits .f32 0x7F800000#32) = 1#1) : Cert.PairDist.IsReal x := by
  have htop : Ideal.ofBits .f32 0x7F800000#32 = (⊤ : EReal) := by simp [Ideal.ofBits, Ideal.ieee]
  rw [htop] at h
  induction x using EReal.rec
  · exfalso; simp [Ideal.cmp] at h
  · exact ⟨_, rfl⟩
  · exfalso; simp [Ideal.cmp] at h

variable [Cert.Pre_finite_inputs.Facts]

instance : Subsingleton Cert.Pre_finite_inputs.S_.Idx := ⟨fun a b => funext fun d => d.elim0⟩

/-- The precondition gives: every entry of both inputs is a real number. -/
theorem real_of_pre (x0 x1 : FVec Ideal Cert.Pre_finite_inputs.S4x1024x64 .f32)
    (h : Cert.Pre_finite_inputs.fn (F := Ideal) x0 x1 = fun _ => 1#1) :
    (∀ i, Cert.PairDist.IsReal (x0 i)) ∧ (∀ i, Cert.PairDist.IsReal (x1 i)) := by
  have h0 := congrFun h ValueIdx.ix0
  dsimp only [Cert.Pre_finite_inputs.fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.PairDist.Finite

end
-- ==== Proof.lean ====
/-
  Pairwise squared Euclidean distances: the kernel against the definition.

  Both programs take two arrays a and b of 4 batches of 1024 points in 64 dimensions and return, for every batch β and
  every pair (n, m), the squared distance ∑_d (a(β,n,d) − b(β,m,d))².  The reference forms every difference, squares it
  and sums the last axis.  The kernel never forms a difference: one grid point per batch, it adds the squared length of
  a's row n and of b's row m and takes off twice the inner product of the two rows, the inner products computed as one
  matrix product of a's batch with the transpose of b's (the factors narrowed to a shorter float format first, which
  over the extended reals changes nothing).

  The two agree by the binomial formula, (x − y)² = x² + y² − 2·x·y, summed over the 64 dimensions.  On the extended
  reals that formula needs x and y to be real numbers (∞ − ∞ is not 0): this is where the precondition, every input
  entry finite, is used.  The word of 2.0 denotes the real number two exactly, so no rounding enters.

  The three runs: the kernel's, at the word level and over the extended reals, terminates without a fault and leaves
  its arguments alone (the generated frames); the reference's likewise (its generated run).  The idealization rewrote
  no operation, so there is nothing to preserve beyond the program's own text.
-/
import proofs.«176832_j41875931136253_1_alg».proof.Defs
import proofs.«176832_j41875931136253_1_alg».proof.Proof.Gen.Kernel
import proofs.«176832_j41875931136253_1_alg».proof.Proof.Gen.Kernel.Skeleton
import proofs.«176832_j41875931136253_1_alg».proof.Proof.Gen.Kernel.Launch
import proofs.«176832_j41875931136253_1_alg».proof.Proof.Gen.Kernel.Points
import proofs.«176832_j41875931136253_1_alg».proof.Proof.Gen.Kernel.Frame
import proofs.«176832_j41875931136253_1_alg».proof.Proof.Gen.KernelIdeal
import proofs.«176832_j41875931136253_1_alg».proof.Proof.Gen.KernelIdeal.Skeleton
import proofs.«176832_j41875931136253_1_alg».proof.Proof.Gen.KernelIdeal.Launch
import proofs.«176832_j41875931136253_1_alg».proof.Proof.Gen.KernelIdeal.Points
import proofs.«176832_j41875931136253_1_alg».proof.Proof.Gen.KernelIdeal.Frame
import proofs.«176832_j41875931136253_1_alg».proof.Proof.Gen.ReferenceIdeal
import proofs.«176832_j41875931136253_1_alg».proof.Proof.Gen.Pre_finite_inputs
import proofs.«176832_j41875931136253_1_alg».proof.Proof.Gen.KernelIdeal.Value
import proofs.«176832_j41875931136253_1_alg».proof.Proof.Gen.ReferenceIdeal.Run
import proofs.«176832_j41875931136253_1_alg».proof.Proof.Gen.ReferenceIdeal.Read
import proofs.«176832_j41875931136253_1_alg».proof.Proof.KernelArray
import proofs.«176832_j41875931136253_1_alg».proof.Proof.RefEntry
import proofs.«176832_j41875931136253_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Over the extended reals, from memories that agree on the two arguments, both programs end at the squared distances
    of the arguments: the kernel because the arguments' entries are real numbers (the precondition), the reference by
    definition. -/
theorem algebraic : Cert.algebraic_KernelIdeal_ReferenceIdeal := by
  intro m ρ m' ρ' hpre hagree
  refine ⟨_, Cert.PairDist.Kernel.run m ρ (fun c => Cert.PairDist.Finite.real_of_pre _ _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.PairDist.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
